-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000x1, .f32⟩
  | .hbm, ⟨53, _⟩ => ⟨S_, .f32⟩
  | .hbm, ⟨54, _⟩ => ⟨S50000x1, .f32⟩
  | .hbm, ⟨55, _⟩ => ⟨S800000x1, .i32⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S128x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageLayer.lean ====
/-
  One mean-aggregation combine layer as ONE function of whole arrays, index by index, on the extended reals.

  For node `r` and output feature `j`, `lin a w r j = Σ_k a[r, k] · w[j, k]` is row `r` of the node table against row `j`
  of the weight, that is the entry `(r, j)` of `a · wᵀ`.  The layer adds the aggregated neighbours' product, the node's
  own product and the bias of feature `j`, and clips the sum below at zero when an activation follows:

      layer a x W_l b W_r (r, j) = clip ((lin a W_l r j + lin x W_r r j) + b[j]).

  A reference that adds the bias BEFORE the second product, `(lin a W_l r j + b[j]) + lin x W_r r j`, computes the same
  number: only commutativity and associativity of `+` are used, and those hold on all of the extended reals, so nothing
  here asks any entry to be finite.
-/
import Idealize.ShloMosaic.PureOps.Ideal
import Idealize.ShloMosaic.Lib.ValueIdx

noncomputable section

open scoped BigOperators

namespace Cert.Sage

open Idealize.ShloMosaic Idealize.ShloMosaic.ValueIdx

/-- The node table: 50000 nodes, 128 features. -/
abbrev Nodes : Shape := ⟨2, ![50000, 128]⟩
/-- A weight: 128 output features by 128 input features. -/
abbrev Weight : Shape := ⟨2, ![128, 128]⟩
/-- A bias: one number per output feature. -/
abbrev Bias : Shape := ⟨1, ![128]⟩

/-- Row `r` of `a` against row `j` of `w`: the entry `(r, j)` of `a · wᵀ`. -/
def lin (a : FVec Ideal Nodes .f32) (w : FVec Ideal Weight .f32) (r : Fin 50000) (j : Fin 128) : EReal :=
  ∑ k : Fin 128, a (ix2 r k) * w (ix2 j k)

/-- The activation: the maximum with zero when `relu`, nothing otherwise. -/
def clip : Bool → EReal → EReal
  | true, v => max v (Ideal.ofBits .f32 0x00000000#32)
  | false, v => v

/-- The layer: both products, then the bias, then the activation. -/
def layer (relu : Bool) (a x : FVec Ideal Nodes .f32) (wl : FVec Ideal Weight .f32) (b : FVec Ideal Bias .f32)
    (wr : FVec Ideal Weight .f32) : FVec Ideal Nodes .f32 :=
  fun i => clip relu ((lin a wl (i 0) (i 1) + lin x wr (i 0) (i 1)) + b (ix1 (i 1)))

/-- Adding the bias between the two products instead of after them changes nothing: `(s + β) + t = (s + t) + β`. -/
theorem bias_between (relu : Bool) (s t β : EReal) : clip relu ((s + β) + t) = clip relu ((s + t) + β) := by
  rw [add_right_comm]

end Cert.Sage

end
-- ==== Proof.KernelPayload.lean ====
/-
  What one grid step of each combine kernel stores, read at one entry of its block.

  A block is 5000 rows of the node table.  At row `p` of the block and feature `q` the stored number is

      (Σ_k a[p, k] · W_l[q, k]  +  Σ_k x[p, k] · W_r[q, k])  +  b[0, q],

  clipped below at zero in the first kernel: each matrix unit product runs into a zero accumulator, so it is the plain
  sum over the one contracted axis; its right operand is the TRANSPOSE of the loaded weight, which is why the weight is
  read at `(q, k)`; narrowing to bf16 changes nothing on the extended reals; and the bias row `[1, 128]` is repeated
  down the 5000 rows.
-/
import proofs.«118111_j18468359373225_1_alg».proof.Proof.Gen.KernelIdeal.Skeleton
import proofs.«118111_j18468359373225_1_alg».proof.Proof.SageLayer
import Idealize.ShloMosaic.PureOps.Ideal.Laws
import Idealize.ShloMosaic.Lib.ValueIdx
import Idealize.ShloMosaic.Lib.Pipeline.Value

noncomputable section

open scoped BigOperators

namespace Cert.KernelIdeal.Combine

open Cert.KernelIdeal Cert.KernelIdeal.Gen Idealize.ShloMosaic Idealize.ShloMosaic.ValueIdx

/-! ## The matrix unit's product at an entry -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A `[5000, 128] × [128, 128]` product into the zero accumulator, at row `p` and column `q`: the sum over the
    contracted axis of the left operand's row `p` against the right operand's column `q`. -/
theorem mxu_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The transposed weight at `(k, q)` is the weight at `(q, k)`. -/
theorem weightT_apply {φ : FTy} (w : FVec Ideal S128x128 φ) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The bias row repeated down the block: entry `(p, q)` is the row's entry `q`. -/
theorem biasRows_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- A bias row `[1, 128]` as a bias `[128]`. -/
def rowOf (b : FVec Ideal S1x128 .f32) : FVec Ideal Cert.Sage.Bias .f32 := fun j => b (ix2 (0 : Fin 1) (j 0))

/-- The row a bias becomes when it is reshaped to `[1, 128]` gives the bias back: both are read in row-major order. -/
theorem rowOf_reshape (b : FVec Ideal S128 .f32) : rowOf (shapeCast S1x128 b shapeCasts_S128_S1x128) = b := by
  funext j
  unfold rowOf
  refine shapeCast_apply b shapeCasts_S128_S1x128 (ix2 (0 : Fin 1) (j 0)) j ?_
  rw [Shape.rowMajor_val_one, Shape.rowMajor_val_two]
  show (j 0).val = (0 : Nat) * 128 + (j 0).val
  omega

/-- Both products and the bias, before any activation: what the two kernels share. -/
def pre (a x : FVec Ideal S5000x128 .f32) (wl wr : FVec Ideal S128x128 .f32) (b : FVec Ideal S1x128 .f32) (p : Fin 5000) (q : Fin 128) : EReal :=
  (∑ k : Fin 128, a (ix2 p k) * wl (ix2 q k) + ∑ k : Fin 128, x (ix2 p k) * wr (ix2 q k)) + b (ix2 (0 : Fin 1) q)

/-- The first kernel's stored value at `(p, q)`: the shared sum clipped below at zero. -/
theorem pay0_apply (a x : Vec Ideal S5000x128 .f32) (wl wr : Vec Ideal S128x128 .f32) (b : Vec Ideal S1x128 .f32) (p : Fin 5000) (q : Fin 128) :
    k0_pay1 (F := Ideal) a x wl wr b (ix2 p q) = Cert.Sage.clip true (pre a x wl wr b p q) := by
  show _ = max (pre a x wl wr b p q) (Ideal.ofBits .f32 0x00000000#32)
  unfold k0_pay1 pre
  simp only [shapeCast_self]
  refine congrArg₂ max (congrArg₂ (· + ·) (congrArg₂ (· + ·) ?_ ?_) ?_) rfl
  · refine (mxu_apply _ _ p q).trans (Finset.sum_congr rfl fun k _ => ?_)
    exact congrArg (a (ix2 p k) * ·) (weightT_apply _ k q)
  · refine (mxu_apply _ _ p q).trans (Finset.sum_congr rfl fun k _ => ?_)
    exact congrArg (x (ix2 p k) * ·) (weightT_apply _ k q)
  · exact biasRows_apply b p q

/-- The second kernel's stored value at `(p, q)`: the shared sum, no activation. -/
theorem pay1_apply (a x : Vec Ideal S5000x128 .f32) (wl wr : Vec Ideal S128x128 .f32) (b : Vec Ideal S1x128 .f32) (p : Fin 5000) (q : Fin 128) :
    k1_pay1 (F := Ideal) a x wl wr b (ix2 p q) = Cert.Sage.clip false (pre a x wl wr b p q) := by
  show _ = pre a x wl wr b p q
  unfold k1_pay1 pre
  simp only [shapeCast_self]
  refine congrArg₂ (· + ·) (congrArg₂ (· + ·) ?_ ?_) ?_
  · refine (mxu_apply _ _ p q).trans (Finset.sum_congr rfl fun k _ => ?_)
    exact congrArg (a (ix2 p k) * ·) (weightT_apply _ k q)
  · refine (mxu_apply _ _ p q).trans (Finset.sum_congr rfl fun k _ => ?_)
    exact congrArg (x (ix2 p k) * ·) (weightT_apply _ k q)
  · exact biasRows_apply b p q

end Cert.KernelIdeal.Combine

end
-- ==== Proof.Region0.lean ====
/-
  Region 0 of the program (pallas_call 0) as one function of the arrays it finds: after its ten grid steps the
  output array holds the combine layer of the five input arrays, entry by entry.

  Grid step `t` stages rows `5000 t … 5000 t + 4999` of the aggregated table and of the node table, the two weights and
  the bias row whole, and writes back rows `5000 t … 5000 t + 4999` of the output.  Entry `(p, q)` of the block it stores
  is the layer's value at row `5000 t + p`, feature `q` (the stored payload read at an entry, with each block entry read
  back through its window), and the ten blocks cover the 50000 rows: row `r` lies in the block of step `r / 5000`.
-/
import proofs.«118111_j18468359373225_1_alg».proof.Proof.Gen.KernelIdeal.Frame
import proofs.«118111_j18468359373225_1_alg».proof.Proof.KernelPayload
import proofs.«118111_j18468359373225_1_alg».proof.Proof.SageLayer
import Idealize.ShloMosaic.Lib.Pipeline.Value

set_option maxRecDepth 16384

noncomputable section

open scoped BigOperators

namespace Cert.KernelIdeal.Region0

open Cert.KernelIdeal Cert.KernelIdeal.Gen Cert.KernelIdeal.Combine Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, by their literal types -/

/-- The aggregated neighbour means. -/
abbrev aggArr (c : Dev nD) : FVec Ideal S50000x128 .f32 := V c main_v21
/-- The node table. -/
abbrev nodeArr (c : Dev nD) : FVec Ideal S50000x128 .f32 := V c main_arg0
/-- The weight applied to the neighbour means. -/
abbrev wlArr (c : Dev nD) : FVec Ideal S128x128 .f32 := V c main_arg2
/-- The bias, as a row. -/
abbrev biasArr (c : Dev nD) : FVec Ideal S1x128 .f32 := V c main_v22
/-- The weight applied to the node's own features. -/
abbrev wrArr (c : Dev nD) : FVec Ideal S128x128 .f32 := V c main_arg4

/-- What the output array holds after the region: the layer of the arrays it found. -/
def result (c : Dev nD) : FVec Ideal S50000x128 .f32 :=
  Cert.Sage.layer true (aggArr V c) (nodeArr V c) (wlArr V c) (rowOf (biasArr V c)) (wrArr V c)

/-! ## The index maps, decided over the ten grid steps -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-! ## Each staged block, read back through its window -/

/-- Entry `y` of step `t`'s block of the aggregated table is the table's entry at row `5000 t + y₀`. -/
theorem agg_blk (c : Dev nD) (t : Fin cfg0.N) (y : S5000x128.Idx) (i : S50000x128.Idx)
    (h0 : (i 0).val = t.val * 5000 + (y 0).val) (h1 : (i 1).val = (y 1).val) :
    iblk0 V c 0 t y = aggArr V c i := by
  obtain ⟨e0, e1, -⟩ := idx_facts t
  show V c main_v21 (((cfg0.win 0).blk t).view.emb y) = V c main_v21 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The same for the node table. -/
theorem node_blk (c : Dev nD) (t : Fin cfg0.N) (y : S5000x128.Idx) (i : S50000x128.Idx)
    (h0 : (i 0).val = t.val * 5000 + (y 0).val) (h1 : (i 1).val = (y 1).val) :
    iblk0 V c 1 t y = nodeArr V c i := by
  obtain ⟨-, -, e0, e1, -⟩ := idx_facts t
  show V c main_arg0 (((cfg0.win 1).blk t).view.emb y) = V c main_arg0 i
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The neighbour weight is staged whole. -/
theorem wl_blk (c : Dev nD) (t : Fin cfg0.N) : iblk0 V c 2 t = wlArr V c := by
  obtain ⟨-, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row is staged whole. -/
theorem bias_blk (c : Dev nD) (t : Fin cfg0.N) : iblk0 V c 3 t = biasArr V c := by
  obtain ⟨-, -, -, -, -, -, e0, e1, -⟩ := idx_facts t
  funext y
  show V c main_v22 (((cfg0.win 3).blk t).view.emb y) = V c main_v22 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The self weight is staged whole. -/
theorem wr_blk (c : Dev nD) (t : Fin cfg0.N) : iblk0 V c 4 t = wrArr V c := by
  obtain ⟨-, -, -, -, -, -, -, -, e0, e1, -⟩ := idx_facts t
  funext y
  show V c main_arg4 (((cfg0.win 4).blk t).view.emb y) = V c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-! ## One stored entry is the layer's value at its row -/

/-- Over blocks that are rows `5000 T + p` of the tables: the shared sum at block entry `(p, q)` is the layer's sum at
    row `r = 5000 T + p`. -/
theorem pre_row (A X : FVec Ideal S50000x128 .f32) (WL WR : FVec Ideal S128x128 .f32) (B : FVec Ideal S1x128 .f32)
    (a x : FVec Ideal S5000x128 .f32) (T : Nat)
    (ha : ∀ (y : S5000x128.Idx) (i : S50000x128.Idx), (i 0).val = T * 5000 + (y 0).val → (i 1).val = (y 1).val → a y = A i)
    (hx : ∀ (y : S5000x128.Idx) (i : S50000x128.Idx), (i 0).val = T * 5000 + (y 0).val → (i 1).val = (y 1).val → x y = X i)
    (p : Fin 5000) (q : Fin 128) (r : Fin 50000) (hr : r.val = T * 5000 + p.val) :
    pre a x WL WR B p q = (Cert.Sage.lin A WL r q + Cert.Sage.lin X WR r q) + rowOf B (ix1 q) := by
  unfold pre Cert.Sage.lin rowOf
  refine congrArg₂ (· + ·) (congrArg₂ (· + ·) ?_ ?_) rfl
  · exact Finset.sum_congr rfl fun k _ => congrArg (· * WL (ix2 q k)) (ha (ix2 p k) (ix2 r k) hr rfl)
  · exact Finset.sum_congr rfl fun k _ => congrArg (· * WR (ix2 q k)) (hx (ix2 p k) (ix2 r k) hr rfl)

/-! ## What step `t` writes back, and the whole array -/

/-- Step `t` writes back block `t` of the layer. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [wl_blk V c t, bias_blk V c t, wr_blk V c t]
  obtain ⟨-, -, -, -, -, -, -, -, -, -, e0, e1, ht⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (wlArr V c) (wrArr V c) (biasArr V c) (ix2 p q)
    = result V c (((cfg0.win 5).blk t).view.emb (ix2 p q))
  have hr : t.val * 5000 + p.val < 50000 := by have := p.isLt; omega
  have hemb : ((cfg0.win 5).blk t).view.emb (ix2 p q) = ix2 (⟨t.val * 5000 + p.val, hr⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [hemb]
  refine (pay0_apply (iblk0 V c 0 t) (iblk0 V c 1 t) (wlArr V c) (wrArr V c) (biasArr V c) p q).trans ?_
  exact congrArg (Cert.Sage.clip true)
    (pre_row (aggArr V c) (nodeArr V c) (wlArr V c) (wrArr V c) (biasArr V c) (iblk0 V c 0 t) (iblk0 V c 1 t) t.val
      (agg_blk V c t) (node_blk V c t) p q ⟨t.val * 5000 + p.val, hr⟩ rfl)

/-- An entry of the output array lies in step `t`'s block iff each coordinate lies in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- The ten blocks cover the array (row `r` lies in the block of step `r / 5000`), so after the region the output
    array IS the layer of the arrays the region found. -/
theorem final (c : Dev nD) : (dat0 V c).arrAt 5 cfg0.N = result V c :=
  (dat0 V c).arrAt_eq_of_cover 5 (result V c) (fun t _ => flushed_eq V c t) fun i => by
    have hi0 : (i 0).val < 50000 := (i 0).isLt
    have hi1 : (i 1).val < 128 := (i 1).isLt
    have hN : (i 0).val / 5000 < cfg0.N := by rw [show cfg0.N = 10 from N_0]; omega
    refine ⟨⟨(i 0).val / 5000, hN⟩, flush0_5 _, ?_⟩
    rw [mem_blk]
    obtain ⟨-, -, -, -, -, -, -, -, -, -, e0, e1, -⟩ := idx_facts ⟨(i 0).val / 5000, hN⟩
    intro a
    match a with
    | ⟨0, _⟩ =>
      show win0_5.index ⟨(i 0).val / 5000, hN⟩ (0 : Fin 2) * 5000 ≤ (i 0).val ∧ (i 0).val < win0_5.index ⟨(i 0).val / 5000, hN⟩ (0 : Fin 2) * 5000 + 5000
      rw [e0]; show (i 0).val / 5000 * 5000 ≤ (i 0).val ∧ (i 0).val < (i 0).val / 5000 * 5000 + 5000; omega
    | ⟨1, _⟩ =>
      show win0_5.index ⟨(i 0).val / 5000, hN⟩ (1 : Fin 2) * 128 ≤ (i 1).val ∧ (i 1).val < win0_5.index ⟨(i 0).val / 5000, hN⟩ (1 : Fin 2) * 128 + 128
      rw [e1]; omega

end Cert.KernelIdeal.Region0

end
-- ==== Proof.Region1.lean ====
/-
  Region 1 of the program (pallas_call 1) as one function of the arrays it finds: after its ten grid steps the
  output array holds the combine layer of the five input arrays, entry by entry.

  Grid step `t` stages rows `5000 t … 5000 t + 4999` of the aggregated table and of the node table, the two weights and
  the bias row whole, and writes back rows `5000 t … 5000 t + 4999` of the output.  Entry `(p, q)` of the block it stores
  is the layer's value at row `5000 t + p`, feature `q` (the stored payload read at an entry, with each block entry read
  back through its window), and the ten blocks cover the 50000 rows: row `r` lies in the block of step `r / 5000`.
-/
import proofs.«118111_j18468359373225_1_alg».proof.Proof.Gen.KernelIdeal.Frame
import proofs.«118111_j18468359373225_1_alg».proof.Proof.KernelPayload
import proofs.«118111_j18468359373225_1_alg».proof.Proof.SageLayer
import Idealize.ShloMosaic.Lib.Pipeline.Value

set_option maxRecDepth 16384

noncomputable section

open scoped BigOperators

namespace Cert.KernelIdeal.Region1

open Cert.KernelIdeal Cert.KernelIdeal.Gen Cert.KernelIdeal.Combine Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The arrays the region finds, by their literal types -/

/-- The aggregated neighbour means. -/
abbrev aggArr (c : Dev nD) : FVec Ideal S50000x128 .f32 := V c main_v41
/-- The node table. -/
abbrev nodeArr (c : Dev nD) : FVec Ideal S50000x128 .f32 := V c main_v23
/-- The weight applied to the neighbour means. -/
abbrev wlArr (c : Dev nD) : FVec Ideal S128x128 .f32 := V c main_arg5
/-- The bias, as a row. -/
abbrev biasArr (c : Dev nD) : FVec Ideal S1x128 .f32 := V c main_v42
/-- The weight applied to the node's own features. -/
abbrev wrArr (c : Dev nD) : FVec Ideal S128x128 .f32 := V c main_arg7

/-- What the output array holds after the region: the layer of the arrays it found. -/
def result (c : Dev nD) : FVec Ideal S50000x128 .f32 :=
  Cert.Sage.layer false (aggArr V c) (nodeArr V c) (wlArr V c) (rowOf (biasArr V c)) (wrArr V c)

/-! ## The index maps, decided over the ten grid steps -/

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-! ## Each staged block, read back through its window -/

/-- Entry `y` of step `t`'s block of the aggregated table is the table's entry at row `5000 t + y₀`. -/
theorem agg_blk (c : Dev nD) (t : Fin cfg1.N) (y : S5000x128.Idx) (i : S50000x128.Idx)
    (h0 : (i 0).val = t.val * 5000 + (y 0).val) (h1 : (i 1).val = (y 1).val) :
    iblk1 V c 0 t y = aggArr V c i := by
  obtain ⟨e0, e1, -⟩ := idx_facts t
  show V c main_v41 (((cfg1.win 0).blk t).view.emb y) = V c main_v41 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The same for the node table. -/
theorem node_blk (c : Dev nD) (t : Fin cfg1.N) (y : S5000x128.Idx) (i : S50000x128.Idx)
    (h0 : (i 0).val = t.val * 5000 + (y 0).val) (h1 : (i 1).val = (y 1).val) :
    iblk1 V c 1 t y = nodeArr V c i := by
  obtain ⟨-, -, e0, e1, -⟩ := idx_facts t
  show V c main_v23 (((cfg1.win 1).blk t).view.emb y) = V c main_v23 i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The neighbour weight is staged whole. -/
theorem wl_blk (c : Dev nD) (t : Fin cfg1.N) : iblk1 V c 2 t = wlArr V c := by
  obtain ⟨-, -, -, -, e0, e1, -⟩ := idx_facts t
  funext y
  show V c main_arg5 (((cfg1.win 2).blk t).view.emb y) = V c main_arg5 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row is staged whole. -/
theorem bias_blk (c : Dev nD) (t : Fin cfg1.N) : iblk1 V c 3 t = biasArr V c := by
  obtain ⟨-, -, -, -, -, -, e0, e1, -⟩ := idx_facts t
  funext y
  show V c main_v42 (((cfg1.win 3).blk t).view.emb y) = V c main_v42 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The self weight is staged whole. -/
theorem wr_blk (c : Dev nD) (t : Fin cfg1.N) : iblk1 V c 4 t = wrArr V c := by
  obtain ⟨-, -, -, -, -, -, -, -, e0, e1, -⟩ := idx_facts t
  funext y
  show V c main_arg7 (((cfg1.win 4).blk t).view.emb y) = V c main_arg7 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-! ## One stored entry is the layer's value at its row -/

/-- Over blocks that are rows `5000 T + p` of the tables: the shared sum at block entry `(p, q)` is the layer's sum at
    row `r = 5000 T + p`. -/
theorem pre_row (A X : FVec Ideal S50000x128 .f32) (WL WR : FVec Ideal S128x128 .f32) (B : FVec Ideal S1x128 .f32)
    (a x : FVec Ideal S5000x128 .f32) (T : Nat)
    (ha : ∀ (y : S5000x128.Idx) (i : S50000x128.Idx), (i 0).val = T * 5000 + (y 0).val → (i 1).val = (y 1).val → a y = A i)
    (hx : ∀ (y : S5000x128.Idx) (i : S50000x128.Idx), (i 0).val = T * 5000 + (y 0).val → (i 1).val = (y 1).val → x y = X i)
    (p : Fin 5000) (q : Fin 128) (r : Fin 50000) (hr : r.val = T * 5000 + p.val) :
    pre a x WL WR B p q = (Cert.Sage.lin A WL r q + Cert.Sage.lin X WR r q) + rowOf B (ix1 q) := by
  unfold pre Cert.Sage.lin rowOf
  refine congrArg₂ (· + ·) (congrArg₂ (· + ·) ?_ ?_) rfl
  · exact Finset.sum_congr rfl fun k _ => congrArg (· * WL (ix2 q k)) (ha (ix2 p k) (ix2 r k) hr rfl)
  · exact Finset.sum_congr rfl fun k _ => congrArg (· * WR (ix2 q k)) (hx (ix2 p k) (ix2 r k) hr rfl)

/-! ## What step `t` writes back, and the whole array -/

/-- Step `t` writes back block `t` of the layer. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [wl_blk V c t, bias_blk V c t, wr_blk V c t]
  obtain ⟨-, -, -, -, -, -, -, -, -, -, e0, e1, ht⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (wlArr V c) (wrArr V c) (biasArr V c) (ix2 p q)
    = result V c (((cfg1.win 5).blk t).view.emb (ix2 p q))
  have hr : t.val * 5000 + p.val < 50000 := by have := p.isLt; omega
  have hemb : ((cfg1.win 5).blk t).view.emb (ix2 p q) = ix2 (⟨t.val * 5000 + p.val, hr⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [hemb]
  refine (pay1_apply (iblk1 V c 0 t) (iblk1 V c 1 t) (wlArr V c) (wrArr V c) (biasArr V c) p q).trans ?_
  exact congrArg (Cert.Sage.clip false)
    (pre_row (aggArr V c) (nodeArr V c) (wlArr V c) (wrArr V c) (biasArr V c) (iblk1 V c 0 t) (iblk1 V c 1 t) t.val
      (agg_blk V c t) (node_blk V c t) p q ⟨t.val * 5000 + p.val, hr⟩ rfl)

/-- An entry of the output array lies in step `t`'s block iff each coordinate lies in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- The ten blocks cover the array (row `r` lies in the block of step `r / 5000`), so after the region the output
    array IS the layer of the arrays the region found. -/
theorem final (c : Dev nD) : (dat1 V c).arrAt 5 cfg1.N = result V c :=
  (dat1 V c).arrAt_eq_of_cover 5 (result V c) (fun t _ => flushed_eq V c t) fun i => by
    have hi0 : (i 0).val < 50000 := (i 0).isLt
    have hi1 : (i 1).val < 128 := (i 1).isLt
    have hN : (i 0).val / 5000 < cfg1.N := by rw [show cfg1.N = 10 from N_1]; omega
    refine ⟨⟨(i 0).val / 5000, hN⟩, flush1_5 _, ?_⟩
    rw [mem_blk]
    obtain ⟨-, -, -, -, -, -, -, -, -, -, e0, e1, -⟩ := idx_facts ⟨(i 0).val / 5000, hN⟩
    intro a
    match a with
    | ⟨0, _⟩ =>
      show win1_5.index ⟨(i 0).val / 5000, hN⟩ (0 : Fin 2) * 5000 ≤ (i 0).val ∧ (i 0).val < win1_5.index ⟨(i 0).val / 5000, hN⟩ (0 : Fin 2) * 5000 + 5000
      rw [e0]; show (i 0).val / 5000 * 5000 ≤ (i 0).val ∧ (i 0).val < (i 0).val / 5000 * 5000 + 5000; omega
    | ⟨1, _⟩ =>
      show win1_5.index ⟨(i 0).val / 5000, hN⟩ (1 : Fin 2) * 128 ≤ (i 1).val ∧ (i 1).val < win1_5.index ⟨(i 0).val / 5000, hN⟩ (1 : Fin 2) * 128 + 128
      rw [e1]; omega

end Cert.KernelIdeal.Region1

end
-- ==== Proof.HostChain.lean ====
/-
  What the idealized kernel program computes, read from the launch memory to the result.

  Both layers begin with the same host computation on the edge table `e` (row 0 the source node of each edge, row 1 its
  destination) and a node table `h`: gather the source rows, add them up per destination, count the edges per
  destination, and divide the sums by the counts (at least one).  Here it is ONE function, `meanOf h src dst`, and it is
  never opened: all that matters is that the second layer applies it to the first layer's output.

  Region 0 is entered with `meanOf x src dst`, `x`, the first weights and the first bias reshaped to a row; it leaves
  `hidden`, the first layer with its activation.  The second host stretch forms `meanOf hidden src dst` (from the same
  `src`, `dst` the first stretch made), region 1 is entered with it, `hidden`, the second weights and bias, and leaves
  the second layer without activation in the result array.
-/
import proofs.«118111_j18468359373225_1_alg».proof.Proof.Gen.KernelIdeal.Frame
import proofs.«118111_j18468359373225_1_alg».proof.Proof.Region0
import proofs.«118111_j18468359373225_1_alg».proof.Proof.Region1
import Idealize.ShloMosaic.Lib.StableHlo.Run

set_option maxRecDepth 16384

noncomputable section

namespace Cert.KernelIdeal.Chain

open Cert.KernelIdeal Cert.KernelIdeal.Gen Cert.KernelIdeal.Combine Idealize.ShloMosaic Idealize.ShloMosaic.TcCoe Idealize.SL.Sem
open Idealize.ShloMosaic.StableHlo

/-- The source node of every edge: row 0 of the edge table, as a vector. -/
def srcOf (e : IVec S2x800000 32) : IVec S800000 32 :=
  shapeCast S800000 (extractStridedSlice S1x800000 ![0, 0] e slices_S2x800000_S1x800000_0_0) shapeCasts_S1x800000_S800000

/-- The destination node of every edge: row 1 of the edge table, as a vector. -/
def dstOf (e : IVec S2x800000 32) : IVec S800000 32 :=
  shapeCast S800000 (extractStridedSlice S1x800000 ![1, 0] e slices_S2x800000_S1x800000_1_0) shapeCasts_S1x800000_S800000

/-- The mean of the in-neighbours' rows of `h`: the rows at the (wrapped) source nodes, summed per destination node and
    divided by the number of edges into it, or by one where there is none. -/
def meanOf (h : FVec Ideal S50000x128 .f32) (src dst : IVec S800000 32) : FVec Ideal S50000x128 .f32 :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (maximumf
        (Host.scatterAdd scatter_S50000x1_S800000x1_S800000x1_1_0_0_1
          (broadcastInDim S50000x1 ![] bcast_S_S50000x1 (constant (F := Ideal) S_ .f32 0x00000000#32))
          (broadcastInDim S800000x1 ![0] bcast_S800000_S800000x1_0 dst)
          (broadcastInDim S800000x1 ![] bcast_S_S800000x1 (constant (F := Ideal) S_ .f32 0x3F800000#32)))
        (broadcastInDim S50000x1 ![] bcast_S_S50000x1 (constant (F := Ideal) S_ .f32 0x3F800000#32))))

variable (m : (ℓ : Loc nD τ sig) → Buf (Elt Ideal) ℓ) (ρ : Dev nD → PrngReg)

/-! ## Region 0's inputs -/

theorem src_entry (c : Dev nD) : W1 m ρ c (Proc.devRef .tc main_v1) = srcOf (m ((c : Thread nD τ).loc main_arg1)) := by
  show StableHlo.after hostOps0 (W0 m ρ c) (Proc.devRef .tc main_v1) = _
  after_results
  rfl

theorem dst_entry (c : Dev nD) : W1 m ρ c (Proc.devRef .tc main_v3) = dstOf (m ((c : Thread nD τ).loc main_arg1)) := by
  show StableHlo.after hostOps0 (W0 m ρ c) (Proc.devRef .tc main_v3) = _
  after_results
  rfl

theorem mean_entry0 (c : Dev nD) :
    V1 m ρ c main_v21 = meanOf (m ((c : Thread nD τ).loc main_arg0)) (srcOf (m ((c : Thread nD τ).loc main_arg1))) (dstOf (m ((c : Thread nD τ).loc main_arg1))) := by
  show StableHlo.after hostOps0 (W0 m ρ c) (Proc.devRef .tc main_v21) = _
  after_results_simp
  rfl

theorem node_entry0 (c : Dev nD) : V1 m ρ c main_arg0 = (m ((c : Thread nD τ).loc main_arg0)) := by
  show StableHlo.after hostOps0 (W0 m ρ c) (Proc.devRef .tc main_arg0) = _
  after_results

theorem wl_entry0 (c : Dev nD) : V1 m ρ c main_arg2 = (m ((c : Thread nD τ).loc main_arg2)) := by
  show StableHlo.after hostOps0 (W0 m ρ c) (Proc.devRef .tc main_arg2) = _
  after_results

theorem bias_entry0 (c : Dev nD) : V1 m ρ c main_v22 = shapeCast S1x128 (m ((c : Thread nD τ).loc main_arg3)) shapeCasts_S128_S1x128 := by
  show StableHlo.after hostOps0 (W0 m ρ c) (Proc.devRef .tc main_v22) = _
  after_results
  rfl

theorem wr_entry0 (c : Dev nD) : V1 m ρ c main_arg4 = (m ((c : Thread nD τ).loc main_arg4)) := by
  show StableHlo.after hostOps0 (W0 m ρ c) (Proc.devRef .tc main_arg4) = _
  after_results

/-! ## Region 0's output: the first layer -/

/-- The first layer's output, with its activation. -/
def hidden (c : Dev nD) : FVec Ideal S50000x128 .f32 :=
  Cert.Sage.layer true (meanOf (m ((c : Thread nD τ).loc main_arg0)) (srcOf (m ((c : Thread nD τ).loc main_arg1))) (dstOf (m ((c : Thread nD τ).loc main_arg1)))) (m ((c : Thread nD τ).loc main_arg0)) (m ((c : Thread nD τ).loc main_arg2)) (m ((c : Thread nD τ).loc main_arg3)) (m ((c : Thread nD τ).loc main_arg4))

theorem exit0 (c : Dev nD) : W2 m ρ c (Proc.devRef .tc main_v23) = hidden m c := by
  refine ((W2_arr m ρ c 5).trans (Region0.final (V1 m ρ) c)).trans ?_
  show Cert.Sage.layer true (V1 m ρ c main_v21) (V1 m ρ c main_arg0) (V1 m ρ c main_arg2) (rowOf (V1 m ρ c main_v22)) (V1 m ρ c main_arg4) = _
  rw [mean_entry0 m ρ c, node_entry0 m ρ c, wl_entry0 m ρ c, bias_entry0 m ρ c, wr_entry0 m ρ c, rowOf_reshape]
  rfl

/-! ## Region 1's inputs: through the second host stretch and region 0's exit -/

theorem src_exit0 (c : Dev nD) : W2 m ρ c (Proc.devRef .tc main_v1) = srcOf (m ((c : Thread nD τ).loc main_arg1)) :=
  (W2_of_ne m ρ c main_v1 (by decide)).trans (src_entry m ρ c)

theorem dst_exit0 (c : Dev nD) : W2 m ρ c (Proc.devRef .tc main_v3) = dstOf (m ((c : Thread nD τ).loc main_arg1)) :=
  (W2_of_ne m ρ c main_v3 (by decide)).trans (dst_entry m ρ c)

theorem mean_entry1 (c : Dev nD) :
    V3 m ρ c main_v41 = meanOf (hidden m c) (srcOf (m ((c : Thread nD τ).loc main_arg1))) (dstOf (m ((c : Thread nD τ).loc main_arg1))) := by
  show StableHlo.after hostOps1 (W2 m ρ c) (Proc.devRef .tc main_v41) = _
  after_results_simp
  rw [exit0 m ρ c, src_exit0 m ρ c, dst_exit0 m ρ c]
  rfl

theorem node_entry1 (c : Dev nD) : V3 m ρ c main_v23 = hidden m c := by
  show StableHlo.after hostOps1 (W2 m ρ c) (Proc.devRef .tc main_v23) = _
  after_results_simp
  exact exit0 m ρ c

theorem wl_entry1 (c : Dev nD) : V3 m ρ c main_arg5 = (m ((c : Thread nD τ).loc main_arg5)) := by
  show StableHlo.after hostOps1 (W2 m ρ c) (Proc.devRef .tc main_arg5) = _
  after_results_simp
  refine (W2_of_ne m ρ c main_arg5 (by decide)).trans ?_
  show StableHlo.after hostOps0 (W0 m ρ c) (Proc.devRef .tc main_arg5) = _
  after_results

theorem bias_entry1 (c : Dev nD) : V3 m ρ c main_v42 = shapeCast S1x128 (m ((c : Thread nD τ).loc main_arg6)) shapeCasts_S128_S1x128 := by
  show StableHlo.after hostOps1 (W2 m ρ c) (Proc.devRef .tc main_v42) = _
  after_results_simp
  have e : W2 m ρ c (Proc.devRef .tc main_arg6) = (m ((c : Thread nD τ).loc main_arg6)) := by
    refine (W2_of_ne m ρ c main_arg6 (by decide)).trans ?_
    show StableHlo.after hostOps0 (W0 m ρ c) (Proc.devRef .tc main_arg6) = _
    after_results
  rw [e]
  rfl

theorem wr_entry1 (c : Dev nD) : V3 m ρ c main_arg7 = (m ((c : Thread nD τ).loc main_arg7)) := by
  show StableHlo.after hostOps1 (W2 m ρ c) (Proc.devRef .tc main_arg7) = _
  after_results_simp
  refine (W2_of_ne m ρ c main_arg7 (by decide)).trans ?_
  show StableHlo.after hostOps0 (W0 m ρ c) (Proc.devRef .tc main_arg7) = _
  after_results

/-! ## The result -/

/-- The second layer, without activation, on the first layer's output. -/
def output (c : Dev nD) : FVec Ideal S50000x128 .f32 :=
  Cert.Sage.layer false (meanOf (hidden m c) (srcOf (m ((c : Thread nD τ).loc main_arg1))) (dstOf (m ((c : Thread nD τ).loc main_arg1)))) (hidden m c) (m ((c : Thread nD τ).loc main_arg5)) (m ((c : Thread nD τ).loc main_arg6)) (m ((c : Thread nD τ).loc main_arg7))

/-- What the last segment boundary holds in the result array. -/
theorem result_value (c : Dev nD) : W4 m ρ c (Proc.devRef .tc main_v43) = output m c := by
  refine ((W4_arr m ρ c 5).trans (Region1.final (V3 m ρ) c)).trans ?_
  show Cert.Sage.layer false (V3 m ρ c main_v41) (V3 m ρ c main_v23) (V3 m ρ c main_arg5) (rowOf (V3 m ρ c main_v42)) (V3 m ρ c main_arg7) = _
  rw [mean_entry1 m ρ c, node_entry1 m ρ c, wl_entry1 m ρ c, bias_entry1 m ρ c, wr_entry1 m ρ c, rowOf_reshape]
  rfl

end Cert.KernelIdeal.Chain

end
-- ==== Proof.RefLayers.lean ====
/-
  The reference program, layer by layer, as the same function the kernels compute.

  Each layer of the reference is `(mean · W_lᵀ + b) + x · W_rᵀ`, the first followed by a maximum with zero.  Read at an entry
  `(r, j)`, each product is the sum over the contracted feature `k` of the table's `[r, k]` times the TRANSPOSED weight's
  `[k, j]`, which is the weight's `[j, k]`; the bias is repeated down the rows.  That is the layer function with the bias
  added between the two products instead of after them, and `(s + β) + t = (s + t) + β` on the extended reals.

  The second layer's neighbour mean is built by the same operations as the first, on the first layer's output and the
  same edge table: it is the first mean's function applied to that output.
-/
import proofs.«118111_j18468359373225_1_alg».proof.Proof.Gen.ReferenceIdeal.Read
import proofs.«118111_j18468359373225_1_alg».proof.Proof.SageLayer

noncomputable section

open scoped BigOperators

namespace Cert.ReferenceIdeal.Layers

open Cert.ReferenceIdeal Cert.ReferenceIdeal.Gen Cert.ReferenceIdeal.Read Idealize.ShloMosaic Idealize.ShloMosaic.ValueIdx

/-- The table's row index `[r, k]` and the transposed weight's `[k, j]`, which is the weight's `[j, k]`. -/
theorem row_idx (i : S50000x128.Idx) (k : Fin 128) : lidx_main_v23 i k = ix2 (i 0) k :=
  funext fun a => by match a with | ⟨0, _⟩ => rfl | ⟨1, _⟩ => rfl
theorem weight_idx (i : S50000x128.Idx) (k : Fin 128) : idx_main_v22 (ridx_main_v23 i k) = ix2 (i 1) k :=
  funext fun a => by match a with | ⟨0, _⟩ => rfl | ⟨1, _⟩ => rfl
theorem bias_idx (i : S50000x128.Idx) : idx_main_v24 (idx_main_v25 i) = ix1 (i 1) :=
  funext fun a => by match a with | ⟨0, _⟩ => rfl

theorem row_idx_self0 (i : S50000x128.Idx) (k : Fin 128) : lidx_main_v28 i k = ix2 (i 0) k :=
  funext fun a => by match a with | ⟨0, _⟩ => rfl | ⟨1, _⟩ => rfl
theorem weight_idx_self0 (i : S50000x128.Idx) (k : Fin 128) : idx_main_v27 (ridx_main_v28 i k) = ix2 (i 1) k :=
  funext fun a => by match a with | ⟨0, _⟩ => rfl | ⟨1, _⟩ => rfl
theorem row_idx_mean1 (i : S50000x128.Idx) (k : Fin 128) : lidx_main_v50 i k = ix2 (i 0) k :=
  funext fun a => by match a with | ⟨0, _⟩ => rfl | ⟨1, _⟩ => rfl
theorem weight_idx_mean1 (i : S50000x128.Idx) (k : Fin 128) : idx_main_v49 (ridx_main_v50 i k) = ix2 (i 1) k :=
  funext fun a => by match a with | ⟨0, _⟩ => rfl | ⟨1, _⟩ => rfl
theorem row_idx_self1 (i : S50000x128.Idx) (k : Fin 128) : lidx_main_v55 i k = ix2 (i 0) k :=
  funext fun a => by match a with | ⟨0, _⟩ => rfl | ⟨1, _⟩ => rfl
theorem weight_idx_self1 (i : S50000x128.Idx) (k : Fin 128) : idx_main_v54 (ridx_main_v55 i k) = ix2 (i 1) k :=
  funext fun a => by match a with | ⟨0, _⟩ => rfl | ⟨1, _⟩ => rfl
theorem bias_idx1 (i : S50000x128.Idx) : idx_main_v51 (idx_main_v52 i) = ix1 (i 1) :=
  funext fun a => by match a with | ⟨0, _⟩ => rfl

/-- The first layer of the reference, activation included, is the layer function of the first neighbour mean. -/
theorem layer0 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v30 (F := Ideal) x0 x1 x2 x3 x4 = Cert.Sage.layer true (val_main_v21 (F := Ideal) x0 x1) x0 x2 x3 x4 := by
  funext i
  rw [val_main_v30_apply, val_main_v29_apply, val_main_v26_apply, val_main_v23_apply, val_main_v28_apply,
    val_main_v25_apply, val_main_v24_apply, val_main_call0_v0_apply, val_main_call0_cst_apply]
  simp only [val_main_v22_apply, val_main_v27_apply]
  simp only [row_idx, weight_idx, bias_idx, row_idx_self0, weight_idx_self0]
  exact Cert.Sage.bias_between true (Cert.Sage.lin (val_main_v21 (F := Ideal) x0 x1) x2 (i 0) (i 1)) (Cert.Sage.lin x0 x4 (i 0) (i 1)) (x3 (ix1 (i 1)))

/-- The second layer of the reference, with no activation, is the layer function of the second neighbour mean and of the
    first layer's output. -/
theorem layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v56 (F := Ideal) x0 x1 x2 x3 x4 x5 x6 x7
      = Cert.Sage.layer false (val_main_v48 (F := Ideal) x0 x1 x2 x3 x4) (val_main_v30 (F := Ideal) x0 x1 x2 x3 x4) x5 x6 x7 := by
  funext i
  rw [val_main_v56_apply, val_main_v53_apply, val_main_v50_apply, val_main_v55_apply, val_main_v52_apply, val_main_v51_apply]
  simp only [val_main_v49_apply, val_main_v54_apply]
  simp only [row_idx_mean1, weight_idx_mean1, bias_idx1, row_idx_self1, weight_idx_self1]
  exact Cert.Sage.bias_between false (Cert.Sage.lin (val_main_v48 (F := Ideal) x0 x1 x2 x3 x4) x5 (i 0) (i 1)) (Cert.Sage.lin (val_main_v30 (F := Ideal) x0 x1 x2 x3 x4) x7 (i 0) (i 1)) (x6 (ix1 (i 1)))

/-- The second neighbour mean is the first mean's function applied to the first layer's output: the same gather, sums,
    counts and division over the same edge table. -/
theorem mean_again (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = val_main_v21 (F := Ideal) (val_main_v30 (F := Ideal) x0 x1 x2 x3 x4) x1 := rfl

end Cert.ReferenceIdeal.Layers

end
-- ==== Proof.lean ====
/-
  The certificate of a two-layer mean-aggregation graph convolution: the kernel program (the irregular gather and per-node
  sums on the host, each layer's dense combine stage as a pallas_call over ten blocks of 5000 nodes) against the plain
  reference.

  Frames.  The kernel program's two frames are the generated several-region frame, at the word level and at the ideal
  level; the reference has no kernel and its frame is its generated run with the result dropped.

  Values, on the extended reals.  Write `mean h` for the neighbour mean of a node table `h` over the edge table (gather
  the source rows, sum per destination, divide by the count or by one) and

      layer a x W_l b W_r (r, j) = clip ((Σ_k a[r,k]·W_l[j,k] + Σ_k x[r,k]·W_r[j,k]) + b[j]).

  The kernel program ends with `layer (mean H) H W_l1 b_1 W_r1` unclipped, where `H = layer (mean x) x W_l0 b_0 W_r0`
  clipped at zero: each region's output array is the layer of the arrays the region finds (block by block, the ten
  blocks covering the table), and the host stretches between hand `mean` of the previous table to the next region.
  The reference computes the same two layers with each bias added between the two products, which is the same number
  by commutativity and associativity of `+`, valid on all of the extended reals: no input need be finite, so the
  precondition is never opened.  `mean` is the same host operations in both programs and is carried as one function,
  never unfolded.  Narrowing to bf16 before the matrix unit is the identity on the extended reals, and nothing was
  rewritten by the idealization, so the `preserves` conjunct is `True`.
-/
import proofs.«118111_j18468359373225_1_alg».proof.Defs
import proofs.«118111_j18468359373225_1_alg».proof.Proof.Gen.Kernel
import proofs.«118111_j18468359373225_1_alg».proof.Proof.Gen.Kernel.Skeleton
import proofs.«118111_j18468359373225_1_alg».proof.Proof.Gen.Kernel.Launch
import proofs.«118111_j18468359373225_1_alg».proof.Proof.Gen.Kernel.Points
import proofs.«118111_j18468359373225_1_alg».proof.Proof.Gen.Kernel.Frame
import proofs.«118111_j18468359373225_1_alg».proof.Proof.Gen.KernelIdeal
import proofs.«118111_j18468359373225_1_alg».proof.Proof.Gen.KernelIdeal.Skeleton
import proofs.«118111_j18468359373225_1_alg».proof.Proof.Gen.KernelIdeal.Launch
import proofs.«118111_j18468359373225_1_alg».proof.Proof.Gen.KernelIdeal.Points
import proofs.«118111_j18468359373225_1_alg».proof.Proof.Gen.KernelIdeal.Frame
import proofs.«118111_j18468359373225_1_alg».proof.Proof.Gen.ReferenceIdeal
import proofs.«118111_j18468359373225_1_alg».proof.Proof.Gen.ReferenceIdeal.Run
import proofs.«118111_j18468359373225_1_alg».proof.Proof.Gen.ReferenceIdeal.Read
import proofs.«118111_j18468359373225_1_alg».proof.Proof.Gen.Pre_finite_inputs
import proofs.«118111_j18468359373225_1_alg».proof.Proof.KernelRun
import proofs.«118111_j18468359373225_1_alg».proof.Proof.HostChain
import proofs.«118111_j18468359373225_1_alg».proof.Proof.RefLayers
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-! ## The values -/

/-- The neighbour mean is the same function in the two programs: the same host operations, in the same order, over
    shapes and dimension numbers that are the same literals. -/
theorem mean_same (h : FVec Ideal Cert.KernelIdeal.S50000x128 .f32) (e : IVec Cert.KernelIdeal.S2x800000 32) :
    Cert.KernelIdeal.Chain.meanOf h (Cert.KernelIdeal.Chain.srcOf e) (Cert.KernelIdeal.Chain.dstOf e)
      = Cert.ReferenceIdeal.Read.val_main_v21 (F := Ideal) h e := rfl

/-- From memories that agree on the eight arguments both programs end with the same result array. -/
theorem algebraic : Cert.algebraic_KernelIdeal_ReferenceIdeal := by
  intro m ρ m' ρ' _ hagree
  refine ⟨fun c => Cert.KernelIdeal.Chain.output m c, ?_, ?_⟩
  · exact (θ_run Cert.KernelIdeal.defs _ _).mono
      (fun r h c => ⟨(h c).1.trans (Cert.KernelIdeal.Chain.result_value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v56_eq, h0, h1, h2, h3, h4, h5, h6, h7,
      Cert.ReferenceIdeal.Layers.layer1, Cert.ReferenceIdeal.Layers.mean_again, Cert.ReferenceIdeal.Layers.layer0]
    show _ = Cert.KernelIdeal.Chain.output m c
    unfold Cert.KernelIdeal.Chain.output Cert.KernelIdeal.Chain.hidden
    simp only [mean_same]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
